-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1200000 32) (main_arg2 : IVec S1200000 32) (main_arg3 : IVec S100000 32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_v13 main_v16
-- ==== Kernel.lean ====
abbrev S100000x64 : Shape := ⟨2, ![100000, 64]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S10000x64 : Shape := ⟨2, ![10000, 64]⟩
abbrev S100000x1 : Shape := ⟨2, ![100000, 1]⟩
abbrev S2x128x64 : Shape := ⟨3, ![2, 128, 64]⟩
abbrev S5000x64 : Shape := ⟨2, ![5000, 64]⟩
abbrev S5000x1 : Shape := ⟨2, ![5000, 1]⟩
abbrev S1x128x64 : Shape := ⟨3, ![1, 128, 64]⟩
abbrev S5000x128 : Shape := ⟨2, ![5000, 128]⟩
abbrev S128x64 : Shape := ⟨2, ![128, 64]⟩

abbrev nBuf : Space → Nat
  | .hbm => 42
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S_, .f32⟩
  | .hbm, ⟨18, _⟩ => ⟨S100000x64, .f32⟩
  | .hbm, ⟨19, _⟩ => ⟨S1200000x1, .i32⟩
  | .hbm, ⟨20, _⟩ => ⟨S100000x64, .f32⟩
  | .hbm, ⟨21, _⟩ => ⟨S1x64, .f32⟩
  | .hbm, ⟨22, _⟩ => ⟨S100000x64, .bf16⟩
  | .hbm, ⟨23, _⟩ => ⟨S_, .i32⟩
  | .hbm, ⟨24, _⟩ => ⟨S1200000, .i32⟩
  | .hbm, ⟨25, _⟩ => ⟨S1200000, .i1⟩
  | .hbm, ⟨26, _⟩ => ⟨S_, .i32⟩
  | .hbm, ⟨27, _⟩ => ⟨S1200000, .i32⟩
  | .hbm, ⟨28, _⟩ => ⟨S1200000, .i32⟩
  | .hbm, ⟨29, _⟩ => ⟨S1200000, .i32⟩
  | .hbm, ⟨30, _⟩ => ⟨S1200000x1, .i32⟩
  | .hbm, ⟨31, _⟩ => ⟨S1200000x64, .bf16⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x1, .i32⟩
  | .hbm, ⟨38, _⟩ => ⟨S1x64, .f32⟩
  | .hbm, ⟨39, _⟩ => ⟨S2x128x64, .f32⟩
  | .hbm, ⟨40, _⟩ => ⟨S_, .f32⟩
  | .hbm, ⟨41, _⟩ => ⟨S128x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .bf16⟩
  | .local _ .vmem, ⟨7, _⟩ => ⟨S10000x64, .bf16⟩
  | .local _ .vmem, ⟨8, _⟩ => ⟨S5000x64, .bf16⟩
  | .local _ .vmem, ⟨9, _⟩ => ⟨S5000x64, .bf16⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S5000x1, .i32⟩
  | .local _ .vmem, ⟨15, _⟩ => ⟨S5000x1, .i32⟩
  | .local _ .vmem, ⟨16, _⟩ => ⟨S1x128x64, .f32⟩
  | .local _ .vmem, ⟨17, _⟩ => ⟨S1x128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S5000x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  shapeCasts_S100000_S100000x1 : S100000.ShapeCasts S100000x1
  inb_S1x128x64_S1x128x64_0_0_0 : ∀ a, (![0, 0, 0] : Fin 3 → Nat) a + S1x128x64.size a ≤ S1x128x64.size a
  h_S1x128x64 : 0 < S1x128x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  shapeCasts_S1x128x64_S1x128x64 : S1x128x64.ShapeCasts S1x128x64
  shapeCasts_S128x64_S1x128x64 : S128x64.ShapeCasts S1x128x64
  reducesTo_S2x128x64_S128x64_d0 : S2x128x64.ReducesTo [0] S128x64
  h_S_ : 0 < S_.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .bf16 = 32 ∨ (Rect.block (s := S100000x64) S10000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .i32 = 32 ∨ (Rect.block (s := S100000x1) S5000x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64.size a ≤ S2x128x64.size a
  hwx1_5 : ∀ i : grid1.Coords, EltTy.bits .f32 = 32 ∨ (Rect.block (s := S2x128x64) S1x128x64.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S100000 : Shape := ⟨1, ![100000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S128x64 : Shape := ⟨2, ![128, 64]⟩
abbrev S100000x1 : Shape := ⟨2, ![100000, 1]⟩

abbrev nBuf : Space → Nat
  | .hbm => 51
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1200000, .i32⟩
  | .hbm, ⟨10, _⟩ => ⟨S1200000, .i1⟩
  | .hbm, ⟨11, _⟩ => ⟨S_, .i32⟩
  | .hbm, ⟨12, _⟩ => ⟨S1200000, .i32⟩
  | .hbm, ⟨13, _⟩ => ⟨S1200000, .i32⟩
  | .hbm, ⟨14, _⟩ => ⟨S1200000, .i32⟩
  | .hbm, ⟨15, _⟩ => ⟨S1200000x1, .i32⟩
  | .hbm, ⟨16, _⟩ => ⟨S1200000x64, .f32⟩
  | .hbm, ⟨17, _⟩ => ⟨S_, .f32⟩
  | .hbm, ⟨18, _⟩ => ⟨S100000x64, .f32⟩
  | .hbm, ⟨19, _⟩ => ⟨S1200000x1, .i32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000x64, .f32⟩
  | .hbm, ⟨38, _⟩ => ⟨S_, .f32⟩
  | .hbm, ⟨39, _⟩ => ⟨S100000x64, .f32⟩
  | .hbm, ⟨40, _⟩ => ⟨S1200000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S128x64, .f32⟩
  | .hbm, ⟨49, _⟩ => ⟨S100000x1, .i32⟩
  | .hbm, ⟨50, _⟩ => ⟨S128x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

class Facts : Prop extends Facts₀ where

variable [Facts]
-- ==== Proof.HostChain.lean ====
/-
  The kernel program's host operations between its two kernels, read as values.

  Before the first kernel the host gathers the source nodes' features along the edges and scatter-adds them to the
  destination nodes (`agg1`); between the kernels it does the same with the hidden layer the first kernel left (`agg2`,
  the gathered rows widened from the narrow float format) and re-lays the graph ids and the second bias as columns and
  rows; after the second kernel it adds the two halves' pooled slabs. Each buffer a kernel reads, and the result, is
  named here as a term of the launch memory and of what the kernels' write-backs leave.
-/
import proofs.«416479_j54211077210422_3_alg».proof.Proof.Gen.KernelIdeal.Frame
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.StableHlo

namespace Cert.KernelIdeal.HostChain

open Cert.KernelIdeal Cert.KernelIdeal.Gen

variable {F : FTy → Type} [FloatOps F]
variable (m : (ℓ : Loc nD τ sig) → Buf (Elt F) ℓ) (ρ : Dev nD → PrngReg)

/-- The edge sources as the gather's index column: a negative id wrapped once by the node count. -/
def srcIdx (x1 : (⟨S1200000, .i32⟩ : BufTy).Contents (Elt F)) : (⟨S1200000x1, .i32⟩ : BufTy).Contents (Elt F) :=
  broadcastInDim S1200000x1 ![0] bcast_S1200000_S1200000x1_0
    (select (cmpi .slt x1 (broadcastInDim S1200000 ![] bcast_S_S1200000 (constantI S_ 32 0#32)))
      (addi x1 (broadcastInDim S1200000 ![] bcast_S_S1200000 (constantI S_ 32 100000#32))) x1)

/-- The first neighbour sums: the features gathered at the edge sources, scatter-added at the edge destinations. -/
def agg1 (x0 : (⟨S100000x64, .f32⟩ : BufTy).Contents (Elt F)) (x1 x2 : (⟨S1200000, .i32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 x2)
    (Host.gather gather_S100000x64_S1200000x1_S1200000x64_1_0_n_n_0_1_164 x0 (srcIdx x1))

/-- The second neighbour sums: the hidden layer (held in the narrow format) gathered, widened, scatter-added. -/
def agg2 (h : (⟨S100000x64, .bf16⟩ : BufTy).Contents (Elt F)) (x1 x2 : (⟨S1200000, .i32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 x2)
    (extf .f32 (Host.gather gather_S100000x64_S1200000x1_S1200000x64_1_0_n_n_0_1_164 h (srcIdx x1)) bitsLt_bf16_f32)

/-! ## What the first kernel finds -/

theorem V1_arg0 (c : Dev nD) : V1 m ρ c main_arg0 = m ((c : Thread nD τ).loc main_arg0) := by
  show StableHlo.after hostOps0 (W0 m ρ c) (Proc.devRef .tc main_arg0) = _
  after_results

theorem V1_arg4 (c : Dev nD) : V1 m ρ c main_arg4 = m ((c : Thread nD τ).loc main_arg4) := by
  show StableHlo.after hostOps0 (W0 m ρ c) (Proc.devRef .tc main_arg4) = _
  after_results

theorem V1_v9 (c : Dev nD) : V1 m ρ c main_v9
    = agg1 (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem V1_v10 (c : Dev nD) : V1 m ρ c main_v10 = shapeCast S1x64 (m ((c : Thread nD τ).loc main_arg5)) shapeCasts_S64_S1x64 := by
  show StableHlo.after hostOps0 (W0 m ρ c) (Proc.devRef .tc main_v10) = _
  after_results
  rfl

/-! ## The arguments the first kernel does not stage are as launched at its exit -/

theorem W1_of_arg (b : Ref sig .tc) (c : Dev nD)
    (h : StableHlo.after hostOps0 (W0 m ρ c) (Proc.devRef .tc b) = W0 m ρ c (Proc.devRef .tc b))
    (hb : ∀ w, Pipeline.arrRef spec0 w ≠ b) : W2 m ρ c (Proc.devRef .tc b) = W0 m ρ c (Proc.devRef .tc b) :=
  (W2_of_ne m ρ c b hb).trans h

theorem W2_arg1 (c : Dev nD) : W2 m ρ c (Proc.devRef .tc main_arg1) = m ((c : Thread nD τ).loc main_arg1) :=
  W1_of_arg m ρ main_arg1 c (by after_results) (by decide)
theorem W2_arg2 (c : Dev nD) : W2 m ρ c (Proc.devRef .tc main_arg2) = m ((c : Thread nD τ).loc main_arg2) :=
  W1_of_arg m ρ main_arg2 c (by after_results) (by decide)
theorem W2_arg3 (c : Dev nD) : W2 m ρ c (Proc.devRef .tc main_arg3) = m ((c : Thread nD τ).loc main_arg3) :=
  W1_of_arg m ρ main_arg3 c (by after_results) (by decide)
theorem W2_arg6 (c : Dev nD) : W2 m ρ c (Proc.devRef .tc main_arg6) = m ((c : Thread nD τ).loc main_arg6) :=
  W1_of_arg m ρ main_arg6 c (by after_results) (by decide)
theorem W2_arg7 (c : Dev nD) : W2 m ρ c (Proc.devRef .tc main_arg7) = m ((c : Thread nD τ).loc main_arg7) :=
  W1_of_arg m ρ main_arg7 c (by after_results) (by decide)

/-! ## What the second kernel finds -/

/-- The hidden layer the first kernel left. -/
abbrev hidden (c : Dev nD) : (⟨S100000x64, .bf16⟩ : BufTy).Contents (Elt F) := (dat0 (V1 m ρ) c).arrAt 4 cfg0.N

theorem V3_v11 (c : Dev nD) : V3 m ρ c main_v11 = hidden m ρ c := by
  show StableHlo.after hostOps1 (W2 m ρ c) (Proc.devRef .tc main_v11) = _
  after_results
  exact W2_arr m ρ c 4

theorem V3_arg6 (c : Dev nD) : V3 m ρ c main_arg6 = m ((c : Thread nD τ).loc main_arg6) := by
  show StableHlo.after hostOps1 (W2 m ρ c) (Proc.devRef .tc main_arg6) = _
  after_results
  exact W2_arg6 m ρ c

theorem V3_v22 (c : Dev nD) : V3 m ρ c main_v22
    = agg2 (hidden m ρ c) (m ((c : Thread nD τ).loc main_arg1)) (m ((c : Thread nD τ).loc main_arg2)) := by
  show StableHlo.after hostOps1 (W2 m ρ c) (Proc.devRef .tc main_v22) = _
  after_results
  rw [W2_arg1, W2_arg2, show W2 m ρ c (Proc.devRef .tc main_v11) = hidden m ρ c from W2_arr m ρ c 4]
  rfl

theorem V3_v23 (c : Dev nD) : V3 m ρ c main_v23 = shapeCast S100000x1 (m ((c : Thread nD τ).loc main_arg3)) shapeCasts_S100000_S100000x1 := by
  show StableHlo.after hostOps1 (W2 m ρ c) (Proc.devRef .tc main_v23) = _
  after_results
  rw [W2_arg3]
  rfl

theorem V3_v24 (c : Dev nD) : V3 m ρ c main_v24 = shapeCast S1x64 (m ((c : Thread nD τ).loc main_arg7)) shapeCasts_S64_S1x64 := by
  show StableHlo.after hostOps1 (W2 m ρ c) (Proc.devRef .tc main_v24) = _
  after_results
  rw [W2_arg7]
  rfl

/-! ## The result -/

/-- The two halves' pooled slabs the second kernel left. -/
abbrev slabs (c : Dev nD) : (⟨S2x128x64, .f32⟩ : BufTy).Contents (Elt F) := (dat1 (V3 m ρ) c).arrAt 5 cfg1.N

theorem W5_v26 (c : Dev nD) : W5 m ρ c (Proc.devRef .tc main_v26)
    = Host.reduceAdd (slabs m ρ c) (constant S_ .f32 0x00000000#32) reducesTo_S2x128x64_S128x64_d0 h_S_ := by
  show StableHlo.after hostOps2 (W4 m ρ c) (Proc.devRef .tc main_v26) = _
  after_results
  rw [show W4 m ρ c (Proc.devRef .tc main_v25) = slabs m ρ c from W4_arr m ρ c 5]

end Cert.KernelIdeal.HostChain

end
-- ==== Proof.Spec.lean ====
/-
  The two programs' common mathematics, stated once over the extended reals, index by index.

  A graph network of two sum-aggregating layers and a sum pooling: with `x` the node features [100000, 64] and `agg` the
  neighbour sums (the same scatter-add of the same gather on both sides, never opened here),
    hidden   h[n, e]  = max (∑ₖ (x[n, k] + agg[n, k]) · W₁[k, e] + b₁[e]) 0
    layer 2  h₂[n, e] = ∑ₖ (h[n, k] + agg₂[n, k]) · W₂[k, e] + b₂[e]
    pooled   out[g, d] = ∑ { h₂[n, d] : graph n = g }.
  The kernel computes the pooling as a 0/1 matrix product per block of 5000 nodes, accumulated over ten blocks on each
  of two halves of the node range and the two halves added; the reference as one scatter-add. Addition of extended reals
  is commutative and associative and `0 · y = 0`, `1 · y = y` for every `y`, so the two agree with no finiteness needed.
-/
import Idealize.ShloMosaic.PureOps.Ideal.Laws
import Idealize.ShloMosaic.Lib.ValueIdx

noncomputable section

namespace Cert.Spec

open Idealize.ShloMosaic Idealize.ShloMosaic.ValueIdx

/-- nodes × features -/
abbrev SN : Shape := ⟨2, ![100000, 64]⟩
/-- a weight matrix -/
abbrev SW : Shape := ⟨2, ![64, 64]⟩
/-- a bias row -/
abbrev SB : Shape := ⟨2, ![1, 64]⟩
/-- the graph ids, one column -/
abbrev SG : Shape := ⟨2, ![100000, 1]⟩
/-- the two halves' pooled sums -/
abbrev SP : Shape := ⟨3, ![2, 128, 64]⟩

/-- One linear layer on the aggregated features: row `n` of `x + agg` times column `e` of `W`, plus the bias. -/
def lin (x agg : SN.Idx → EReal) (W : SW.Idx → EReal) (b : SB.Idx → EReal) (n : Fin 100000) (e : Fin 64) : EReal :=
  (∑ k : Fin 64, (x (ix2 n k) + agg (ix2 n k)) * W (ix2 k e)) + b (ix2 0 e)

/-- The layer as an array. -/
def linA (x agg : SN.Idx → EReal) (W : SW.Idx → EReal) (b : SB.Idx → EReal) : SN.Idx → EReal :=
  fun i => lin x agg W b (i 0) (i 1)

/-- The hidden layer: the linear layer clipped below at zero. -/
def hidA (x agg : SN.Idx → EReal) (W : SW.Idx → EReal) (b : SB.Idx → EReal) : SN.Idx → EReal :=
  fun i => max (lin x agg W b (i 0) (i 1)) 0

/-- The node that row `r` of block `t` (of twenty blocks of 5000 rows) holds. -/
def row (t : Fin 20) (r : Fin 5000) : Fin 100000 := ⟨t.val * 5000 + r.val, by have := t.isLt; have := r.isLt; omega⟩

/-- The one-hot entry: `1` when the graph id is `g`, else `0`. -/
def oh (gid : BitVec 32) (g : Fin 128) : EReal := if gid = BitVec.ofNat 32 g.val then 1 else 0

/-- Block `t`'s contribution to graph `g`, feature `d`: the rows of the block whose graph id is `g`, summed
    (as the 0/1 matrix product does it). -/
def contrib (gid : SG.Idx → BitVec 32) (h2 : SN.Idx → EReal) (t : Fin 20) (g : Fin 128) (d : Fin 64) : EReal :=
  ∑ r : Fin 5000, oh (gid (ix2 (row t r) 0)) g * h2 (ix2 (row t r) d)

/-- Block `s` of half `c`. -/
def blk (c : Fin 2) (s : Fin 10) : Fin 20 := ⟨c.val * 10 + s.val, by have := c.isLt; have := s.isLt; omega⟩

/-- What the second kernel leaves: per half `c` of the node range, the ten blocks' contributions added. -/
def poolA (gid : SG.Idx → BitVec 32) (h2 : SN.Idx → EReal) : SP.Idx → EReal :=
  fun i => ∑ s : Fin 10, contrib gid h2 (blk (i 0) s) (i 1) (i 2)

end Cert.Spec

end
-- ==== Proof.Region0.lean ====
/-
  The first kernel's value. At each of its ten grid points the kernel reads a block of 10000 nodes' features and
  neighbour sums, the whole weight matrix and the bias row, and stores the block's clipped linear layer
  `max (∑ₖ (x[n, k] + agg[n, k]) · W[k, e] + b[e]) 0` (the narrowing and widening of float formats are the identity over
  the extended reals; the matrix product into a zero accumulator is the plain sum over the 64 features). Block `t` is rows
  `10000·t … 10000·t + 9999` of every node array, so what point `t` writes back is block `t` of ONE whole-array function;
  the ten blocks cover the array, and the array ends holding that function.
-/
import proofs.«416479_j54211077210422_3_alg».proof.Proof.Gen.KernelIdeal.Frame
import proofs.«416479_j54211077210422_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.R0

open Cert.KernelIdeal Cert.KernelIdeal.Gen

/-- The zero offsets, as the constant function. -/
theorem hz : (![0, 0] : Fin 2 → Nat) = fun _ => 0 := funext fun a => by fin_cases a <;> rfl

/-! ## The product's operand indices: row of the left operand, column of the right, the contracted axis shared -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product at row `p`, column `q`: the sum over the shared axis of row `p` of the left operand times column `q` of the right. -/
theorem matmul_at (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun d => Fin.ext (by
    match d with
    | ⟨0, _⟩ => exact lhs_0 _ _
    | ⟨1, _⟩ => exact (lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun d => Fin.ext (by
    match d with
    | ⟨0, _⟩ => exact (rhs_0 _ _).trans hk
    | ⟨1, _⟩ => exact rhs_1 _ _)
  rw [el, er]

/-- The bias row spread over the block's rows reads, at row `p` and column `q`, the bias at `q`. -/
theorem bias_at (x3 : Vec Ideal S1x64 .f32) (p : Fin 10000) (q : Fin 64) :
    broadcastTo S10000x64 x3 broadcasts_S1x64_S10000x64 (ix2 p q) = x3 (ix2 0 q) :=
  broadcastTo_apply x3 broadcasts_S1x64_S10000x64 (ix2 p q) (ix2 0 q) (fun a => by
    match a with
    | ⟨0, _⟩ => rfl
    | ⟨1, _⟩ => rfl)

/-- What the body stores, entry by entry: row `p` of the two feature blocks added, times column `q` of the weights, plus the
    bias at `q`, clipped below at zero (the narrowings are the identity on the extended reals). -/
theorem pay_at (x0 x1 : Vec Ideal S10000x64 .f32) (x2 : Vec Ideal S64x64 .f32) (x3 : Vec Ideal S1x64 .f32)
    (p : Fin 10000) (q : Fin 64) :
    k0_pay1 x0 x1 x2 x3 (ix2 p q)
      = max ((∑ k : Fin 64, (x0 (ix2 p k) + x1 (ix2 p k)) * x2 (ix2 k q)) + x3 (ix2 0 q)) 0 := by
  unfold k0_pay1
  simp only [shapeCast_self]
  rw [truncf_apply, maximumf_apply, addf_apply, matmul_at, broadcast_apply, bias_at]
  simp only [truncf_apply, addf_apply]
  rw [show (FloatOps.ofBits FTy.f32 0#32 : Ideal .f32) = 0 from Ideal.ofBits_zero_f32]

/-! ## A block of the hidden layer from blocks of the arrays -/

/-- If the two feature blocks are rows `r p` of two arrays and the weight and bias blocks are the whole weight and bias
    arrays, the stored block is rows `r p` of the hidden layer of those arrays. -/
theorem hid_blk (a0 a1 : Cert.Spec.SN.Idx → EReal) (W : Cert.Spec.SW.Idx → EReal) (b : Cert.Spec.SB.Idx → EReal)
    (x0 x1 : Vec Ideal S10000x64 .f32) (x2 : Vec Ideal S64x64 .f32) (x3 : Vec Ideal S1x64 .f32)
    (r : Fin 10000 → Fin 100000)
    (h0 : ∀ p k, x0 (ix2 p k) = a0 (ix2 (r p) k)) (h1 : ∀ p k, x1 (ix2 p k) = a1 (ix2 (r p) k))
    (h2 : ∀ k q, x2 (ix2 k q) = W (ix2 k q)) (h3 : ∀ q, x3 (ix2 0 q) = b (ix2 0 q)) (p : Fin 10000) (q : Fin 64) :
    k0_pay1 x0 x1 x2 x3 (ix2 p q) = Cert.Spec.hidA a0 a1 W b (ix2 (r p) q) := by
  rw [pay_at]
  simp only [h0, h1, h2, h3]
  rfl

/-! ## The grid: ten points, point `t` on rows `10000·t … 10000·t + 9999` -/

/-- The windows' block indices at point `t`: the two feature windows and the output window are at block `t` of the rows,
    the weight and bias windows at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node that row `p` of point `t`'s block holds. -/
def rowOf (t : Fin cfg0.N) (p : Fin 10000) : Fin 100000 :=
  ⟨t.val * 10000 + p.val, by have := t.isLt; have hN : cfg0.N = 10 := N_0; have := p.isLt; omega⟩

variable (V : (c : Dev nD) → (b : Ref sig .tc) → Buf (Elt Ideal) ((c : Thread nD τ).loc b))

/-! ## The windows' blocks, read off the arrays -/

/-- The first feature window's block at point `t` is rows `rowOf t p` of its array. -/
theorem blk0_at (c : Dev nD) (t : Fin cfg0.N) (p : Fin 10000) (k : Fin 64) :
    (iblk0 V c 0 t : Vec Ideal S10000x64 .f32) (ix2 p k)
      = (V c main_arg0 : Cert.Spec.SN.Idx → EReal) (ix2 (rowOf t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The second feature window's block at point `t` is rows `rowOf t p` of its array. -/
theorem blk1_at (c : Dev nD) (t : Fin cfg0.N) (p : Fin 10000) (k : Fin 64) :
    (iblk0 V c 1 t : Vec Ideal S10000x64 .f32) (ix2 p k)
      = (V c main_v9 : Cert.Spec.SN.Idx → EReal) (ix2 (rowOf t p) k) := by
  obtain ⟨-, -, e0, e1, -⟩ := idx_facts t
  unfold iblk0
  rw [View.read_apply]
  show V c main_v9 _ = V c main_v9 _
  congr 1
  funext a
  apply Fin.ext
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The weight window's block is the weight array at every point. -/
theorem blk2_at (c : Dev nD) (t : Fin cfg0.N) (k q : Fin 64) :
    (iblk0 V c 2 t : Vec Ideal S64x64 .f32) (ix2 k q)
      = (V c main_arg4 : Cert.Spec.SW.Idx → EReal) (ix2 k q) := by
  obtain ⟨-, -, -, -, e0, e1, -⟩ := idx_facts t
  unfold iblk0
  rw [View.read_apply]
  show V c main_arg4 _ = V c main_arg4 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The bias window's block is the bias row at every point. -/
theorem blk3_at (c : Dev nD) (t : Fin cfg0.N) (q : Fin 64) :
    (iblk0 V c 3 t : Vec Ideal S1x64 .f32) (ix2 0 q)
      = (V c main_v10 : Cert.Spec.SB.Idx → EReal) (ix2 0 q) := by
  obtain ⟨-, -, -, -, -, -, e0, e1, -⟩ := idx_facts t
  unfold iblk0
  rw [View.read_apply]
  show V c main_v10 _ = V c main_v10 _
  congr 1
  funext a
  apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-- What the body leaves at point `t`: rows `rowOf t p` of the hidden layer of the arrays. -/
theorem pay_blk (c : Dev nD) (t : Fin cfg0.N) :
    (k0_pay1 (iblk0 V c 0 t) (iblk0 V c 1 t) (iblk0 V c 2 t) (iblk0 V c 3 t) : Vec Ideal S10000x64 .bf16)
      = fun j : S10000x64.Idx => Cert.Spec.hidA (V c main_arg0) (V c main_v9) (V c main_arg4) (V c main_v10) (ix2 (rowOf t (j 0)) (j 1)) := by
  funext j
  obtain ⟨p, q, rfl⟩ : ∃ (p : Fin 10000) (q : Fin 64), j = ix2 p q := ⟨j 0, j 1, eq_ix2 j⟩
  exact hid_blk (V c main_arg0) (V c main_v9) (V c main_arg4) (V c main_v10)
    (iblk0 V c 0 t) (iblk0 V c 1 t) (iblk0 V c 2 t) (iblk0 V c 3 t) (rowOf t)
    (blk0_at V c t) (blk1_at V c t) (blk2_at V c t) (blk3_at V c t) p q

/-! ## What each point writes back, and the array after the run -/

/-- What point `t` writes back is block `t` of the hidden layer of the arrays as the kernel finds them. -/
theorem flushed_eq (c : Dev nD) (t : Fin cfg0.N) :
    (dat0 (F := Ideal) V c).flushed 4 t
      = ((cfg0.win 4).blk t).view.read (Elt Ideal)
          (Cert.Spec.hidA (V c main_arg0) (V c main_v9) (V c main_arg4) (V c main_v10)) := by
  show (cfg0.win 4).cut (grid0.coords t) ((dat0 V c).after 4 t) = _
  rw [after0_4]
  unfold out0_4
  rw [View.canon_unit_zero hz]
  simp only [View.ld_unit_zero (S := S10000x64) hz, View.ld_unit_zero (S := S64x64) hz, View.ld_unit_zero (S := S1x64) hz]
  rw [pay_blk]
  obtain ⟨-, -, -, -, -, -, -, -, e0, e1⟩ := idx_facts t
  funext j
  show Cert.Spec.hidA (V c main_arg0) (V c main_v9) (V c main_arg4) (V c main_v10) (ix2 (rowOf t (j 0)) (j 1))
    = Cert.Spec.hidA (V c main_arg0) (V c main_v9) (V c main_arg4) (V c main_v10) (((cfg0.win 4).blk t).view.emb j)
  congr 1
  funext a
  apply Fin.ext
  match a with
  | ⟨0, _⟩ => show t.val * 10000 + (j 0).val = win0_4.index t (0 : Fin 2) * 10000 + 1 * (j 0).val; rw [e0]; omega
  | ⟨1, _⟩ => show (j 1).val = win0_4.index t (1 : Fin 2) * 64 + 1 * (j 1).val; rw [e1]; omega

/-- An index of the array is in point `t`'s block iff each coordinate is in the block's range on its axis. -/
theorem mem_blk (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v11).slice (win0_4.rect t)).set ↔ _
  rw [View.set_slice_whole, Rect.mem_set_unit]
  exact Iff.rfl

/-- Every row of the array is in some point's block: row `r` in point `r / 10000`'s. -/
theorem cover (i : S100000x64.Idx) :
    ∃ t : Fin cfg0.N, (cfg0.win 4).flush t = true ∧ i ∈ ((cfg0.win 4).blk t).view.set := by
  have hN : cfg0.N = 10 := N_0
  have hi0 : (i 0).val < 100000 := (i 0).isLt
  have hi1 : (i 1).val < 64 := (i 1).isLt
  let t : Fin cfg0.N := ⟨(i 0).val / 10000, by omega⟩
  obtain ⟨-, -, -, -, -, -, -, -, e0, e1⟩ := idx_facts t
  have ht : t.val = (i 0).val / 10000 := rfl
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; rw [e0, ht]; omega
  | ⟨1, _⟩ => show win0_4.index t (1 : Fin 2) * 64 ≤ (i 1).val ∧ (i 1).val < win0_4.index t (1 : Fin 2) * 64 + 64; rw [e1]; omega

/-- After the first kernel the hidden-layer array holds, at every node and feature, the clipped linear layer of the
    arrays the kernel found. -/
theorem arr4 (c : Dev nD) :
    (dat0 (F := Ideal) V c).arrAt 4 cfg0.N
      = Cert.Spec.hidA (V c main_arg0) (V c main_v9) (V c main_arg4) (V c main_v10) := by
  exact (dat0 (F := Ideal) V c).arrAt_eq_of_cover 4
    (Cert.Spec.hidA (V c main_arg0) (V c main_v9) (V c main_arg4) (V c main_v10))
    (fun t _ => flushed_eq V c t) cover

end Cert.KernelIdeal.R0

end
-- ==== Proof.Region1.lean ====
/-
  The second kernel's value. The grid is two halves of ten points; point `10·c + s` reads block `10·c + s` (5000 nodes)
  of the hidden layer, of its neighbour sums and of the graph ids, and the whole weights and bias. Its body forms the
  block's second linear layer and the block's 0/1 matrix (entry `(r, g)` is `1` when row `r`'s graph id is `g`), and adds
  their product over the rows to the half's 1×128×64 block, which the first point of each half first sets to zero and the
  last point of each half writes back. So after the last point of half `c` the block holds, at `(0, g, d)`, the sum over the
  half's ten blocks of `∑ᵣ onehot(r, g) · layer(r, d)`: a fold over the run of ten points, unrolled into a sum of
  addends; the two write-backs cover the 2×128×64 array.
-/
import proofs.«416479_j54211077210422_3_alg».proof.Proof.Gen.KernelIdeal.Frame
import proofs.«416479_j54211077210422_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.R1

open Cert.KernelIdeal Cert.KernelIdeal.Gen

variable (V : (c : Dev nD) → (b : Ref sig .tc) → Buf (Elt Ideal) ((c : Thread nD τ).loc b))

section Pieces
variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- A point that does not reset leaves, over the carried block `xo`, the payload of its one covering store. -/
theorem out_B (c : Dev nD) (i : grid1.Coords) (a2 : Memref sig .tc .vmem S5000x64 .bf16) (h2 : a2.IsWhole) (a3 : Memref sig .tc .vmem S5000x64 .f32) (h3 : a3.IsWhole) (a4 : Memref sig .tc .vmem S64x64 .f32) (h4 : a4.IsWhole) (a5 : Memref sig .tc .vmem S1x64 .f32) (h5 : a5.IsWhole) (a6 : Memref sig .tc .vmem S5000x1 .i32) (h6 : a6.IsWhole) (a7 : Memref sig .tc .vmem S1x128x64 .f32) (h7 : a7.IsWhole) (hc : ¬cond1_0 i)
    (x0 : Vec F S5000x64 .bf16) (x1 : Vec F S5000x64 .f32) (x2 : Vec F S64x64 .f32) (x3 : Vec F S1x64 .f32) (x4 : Vec F S5000x1 .i32) (xo : Vec F S1x128x64 .f32) :
    out1_B_5 c i a2 h2 a3 h3 a4 h4 a5 h5 a6 h6 a7 h7 hc x0 x1 x2 x3 x4 xo = k1_pay2 x0 x1 x2 x3 x4 xo := by
  unfold out1_B_5
  rw [View.read_writes_eq_canon _ _ _ (cover1_B_5 c i a2 h2 a3 h3 a4 h4 a5 h5 a6 h6 a7 h7 hc x0 x1 x2 x3 x4 xo)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S5000x64) hz2, View.ld_unit_zero (S := S64x64) hz2, View.ld_unit_zero (S := S1x64) hz2,
    View.ld_unit_zero (S := S5000x1) hz2, View.ld_unit_zero (S := S1x128x64) hz3]

/-- A resetting point stores the zero block, reads it back, and leaves the same payload over the zero block. -/
theorem out_A (c : Dev nD) (i : grid1.Coords) (a2 : Memref sig .tc .vmem S5000x64 .bf16) (h2 : a2.IsWhole) (a3 : Memref sig .tc .vmem S5000x64 .f32) (h3 : a3.IsWhole) (a4 : Memref sig .tc .vmem S64x64 .f32) (h4 : a4.IsWhole) (a5 : Memref sig .tc .vmem S1x64 .f32) (h5 : a5.IsWhole) (a6 : Memref sig .tc .vmem S5000x1 .i32) (h6 : a6.IsWhole) (a7 : Memref sig .tc .vmem S1x128x64 .f32) (h7 : a7.IsWhole) (hc : cond1_0 i)
    (x0 : Vec F S5000x64 .bf16) (x1 : Vec F S5000x64 .f32) (x2 : Vec F S64x64 .f32) (x3 : Vec F S1x64 .f32) (x4 : Vec F S5000x1 .i32) :
    out1_A_5 c i a2 h2 a3 h3 a4 h4 a5 h5 a6 h6 a7 h7 hc x0 x1 x2 x3 x4 = k1_pay2 x0 x1 x2 x3 x4 k1_pay1 := by
  unfold out1_A_5
  rw [View.read_writes_eq_canon _ _ _ (cover1_A_5 c i a2 h2 a3 h3 a4 h4 a5 h5 a6 h6 a7 h7 hc x0 x1 x2 x3 x4)]
  unfold kernelRun1_A
  dsimp only
  sl_unfold_words
  rw [View.canon_cons_unit_zero (S := S1x128x64) hz3, View.readCov_unit_zero (S := S1x128x64) _ hz3]
  simp only [View.readAt_eq_ld, h2.read_unread, h3.read_unread, h4.read_unread, h5.read_unread, h6.read_unread,
    View.ld_unit_zero (S := S5000x64) hz2, View.ld_unit_zero (S := S64x64) hz2, View.ld_unit_zero (S := S1x64) hz2,
    View.ld_unit_zero (S := S5000x1) hz2]
end Pieces

section Payload

/-! The first product contracts the feature axis of a block's rows against the rows of the weight matrix. -/

theorem lhsA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row `n` of the left factor against column `e` of the right one. -/
theorem mmA_apply (l : FVec Ideal S5000x64 .bf16) (r : FVec Ideal S64x64 .bf16) (n : Fin 5000) (e : Fin 64) :
    matmul dot_S5000x64_S64x64_S5000x64_1_0_0_1_n_n none l r (constant S5000x64 .f32 0x00000000#32) (ix2 n e)
      = ∑ k : Fin 64, l (ix2 n k) * r (ix2 k e) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 n e) ((contrEquiv1 dot_S5000x64_S64x64_S5000x64_1_0_0_1_n_n 64 rfl rfl).symm k) = ix2 n k := funext fun a => Fin.ext (by
    match a with
    | ⟨0, _⟩ => exact lhsA_0 _ _
    | ⟨1, _⟩ => exact (lhsA_1 _ _).trans hk)
  have er : dot_S5000x64_S64x64_S5000x64_1_0_0_1_n_n.rhsIdx (ix2 n e) ((contrEquiv1 dot_S5000x64_S64x64_S5000x64_1_0_0_1_n_n 64 rfl rfl).symm k) = ix2 k e := funext fun a => Fin.ext (by
    match a with
    | ⟨0, _⟩ => exact (rhsA_0 _ _).trans hk
    | ⟨1, _⟩ => exact rhsA_1 _ _)
  rw [el, er]

/-! The second product contracts the ROW axis of both factors: column `g` of the 0/1 matrix against column `d` of the layer. -/

theorem lhsB_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhsB_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem rhsB_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhsB_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

theorem mmB_apply (l : FVec Ideal S5000x128 .f32) (r : FVec Ideal S5000x64 .f32) (g : Fin 128) (d : Fin 64) :
    matmul dot_S5000x128_S5000x64_S128x64_0_0_1_1_n_n (some .fp32) l r (constant S128x64 .f32 0x00000000#32) (ix2 g d)
      = ∑ k : Fin 5000, l (ix2 k g) * r (ix2 k d) := by
  simp only [matmul]
  rw [Ideal.matmul_constant_zero_apply, ← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  have el : dot_S5000x128_S5000x64_S128x64_0_0_1_1_n_n.lhsIdx (ix2 g d) ((contrEquiv1 dot_S5000x128_S5000x64_S128x64_0_0_1_1_n_n 5000 rfl rfl).symm k) = ix2 k g := funext fun a => Fin.ext (by
    match a with
    | ⟨0, _⟩ => exact (lhsB_0 _ _).trans hk
    | ⟨1, _⟩ => exact lhsB_1 _ _)
  have er : dot_S5000x128_S5000x64_S128x64_0_0_1_1_n_n.rhsIdx (ix2 g d) ((contrEquiv1 dot_S5000x128_S5000x64_S128x64_0_0_1_1_n_n 5000 rfl rfl).symm k) = ix2 k d := funext fun a => Fin.ext (by
    match a with
    | ⟨0, _⟩ => exact (rhsB_0 _ _).trans hk
    | ⟨1, _⟩ => exact rhsB_1 _ _)
  rw [el, er]

end Payload

section Blocks

variable {F : FTy → Type} [FloatOps F]

/-- A block's second linear layer, as the body computes it from the block's rows, the weights and the bias. -/
def h2blk (x0 : Vec F S5000x64 .bf16) (x1 : Vec F S5000x64 .f32) (x2 : Vec F S64x64 .f32) (x3 : Vec F S1x64 .f32) : FVec F S5000x64 .f32 :=
  addf (matmul dot_S5000x64_S64x64_S5000x64_1_0_0_1_n_n none
      (truncf .bf16 (addf (extf .f32 (shapeCast S5000x64 x0 shapeCasts_S5000x64_S5000x64) bitsLt_bf16_f32) (shapeCast S5000x64 x1 shapeCasts_S5000x64_S5000x64)) bitsLt_bf16_f32)
      (truncf .bf16 x2 bitsLt_bf16_f32) (constant S5000x64 .f32 0x00000000#32))
    (broadcastTo S5000x64 (shapeCast S1x64 x3 shapeCasts_S1x64_S1x64) broadcasts_S1x64_S5000x64)

/-- A block's 0/1 matrix: entry (r, g) says whether row `r`'s graph id is `g`. -/
def ohblk (x4 : Vec F S5000x1 .i32) : FVec F S5000x128 .f32 :=
  sitofp .f32 (extui 32 (cmpi .eq (broadcastTo S5000x128 (shapeCast S5000x1 x4 shapeCasts_S5000x1_S5000x1) broadcasts_S5000x1_S5000x128)
    (iota .tc S5000x128 32 [1] iota_S5000x128_d1_w32)) natLt_1_32)

/-- The accumulating store's payload: the carried block plus the 0/1 matrix's product with the layer. -/
theorem pay2_eq (x0 : Vec F S5000x64 .bf16) (x1 : Vec F S5000x64 .f32) (x2 : Vec F S64x64 .f32) (x3 : Vec F S1x64 .f32)
    (x4 : Vec F S5000x1 .i32) (xo : Vec F S1x128x64 .f32) :
    k1_pay2 x0 x1 x2 x3 x4 xo
      = addf (shapeCast S1x128x64 xo shapeCasts_S1x128x64_S1x128x64)
          (shapeCast S1x128x64 (matmul dot_S5000x128_S5000x64_S128x64_0_0_1_1_n_n (some .fp32) (ohblk x4) (h2blk x0 x1 x2 x3) (constant S128x64 .f32 0x00000000#32)) shapeCasts_S128x64_S1x128x64) := rfl

end Blocks

section BlocksAtIndex

theorem h2blk_apply (x0 : Vec Ideal S5000x64 .bf16) (x1 : Vec Ideal S5000x64 .f32) (x2 : Vec Ideal S64x64 .f32) (x3 : Vec Ideal S1x64 .f32)
    (n : Fin 5000) (d : Fin 64) :
    h2blk x0 x1 x2 x3 (ix2 n d) = (∑ k : Fin 64, (x0 (ix2 n k) + x1 (ix2 n k)) * x2 (ix2 k d)) + x3 (ix2 0 d) := by
  unfold h2blk
  rw [addf_apply, mmA_apply, shapeCast_self, shapeCast_self, shapeCast_self,
    broadcastTo_apply x3 broadcasts_S1x64_S5000x64 (ix2 n d) (ix2 0 d) (fun a => match a with
      | ⟨0, _⟩ => by show 0 = if (1 : Nat) = 1 then 0 else n.val; rw [if_pos rfl]
      | ⟨1, _⟩ => by show d.val = if (64 : Nat) = 1 then 0 else d.val; rw [if_neg (by decide)])]
  rfl

theorem ohblk_apply (x4 : Vec Ideal S5000x1 .i32) (r : Fin 5000) (g : Fin 128) :
    ohblk (F := Ideal) x4 (ix2 r g) = Cert.Spec.oh (x4 (ix2 r 0)) g := by
  unfold ohblk
  rw [sitofp_apply, extui_apply]
  show FloatOps.sitofp .f32 ((IntOp.cmpi .eq (broadcastTo S5000x128 (shapeCast S5000x1 x4 shapeCasts_S5000x1_S5000x1) broadcasts_S5000x1_S5000x128 (ix2 r g))
    (iota .tc S5000x128 32 [1] iota_S5000x128_d1_w32 (ix2 r g))).setWidth 32) = _
  rw [iota_single_apply, shapeCast_self,
    broadcastTo_apply x4 broadcasts_S5000x1_S5000x128 (ix2 r g) (ix2 r 0) (fun a => match a with
      | ⟨0, _⟩ => by show r.val = if (5000 : Nat) = 1 then 0 else r.val; rw [if_neg (by decide)]
      | ⟨1, _⟩ => by show 0 = if (1 : Nat) = 1 then 0 else g.val; rw [if_pos rfl])]
  show (((((IntOp.cmpi .eq (x4 (ix2 r 0)) (BitVec.ofNat 32 g.val)).setWidth 32).toInt : ℝ)) : EReal) = _
  unfold Cert.Spec.oh IntOp.cmpi
  by_cases h : x4 (ix2 r 0) = BitVec.ofNat 32 g.val
  · rw [if_pos h, h]; simp
  · have hb : (x4 (ix2 r 0) == BitVec.ofNat 32 g.val) = false := beq_eq_false_iff_ne.mpr h
    rw [if_neg h]; simp [hb]

/-- The payload at an index: the carried entry plus the sum, over the block's rows, of the 0/1 entry times the layer. -/
theorem pay2_apply (x0 : Vec Ideal S5000x64 .bf16) (x1 : Vec Ideal S5000x64 .f32) (x2 : Vec Ideal S64x64 .f32) (x3 : Vec Ideal S1x64 .f32)
    (x4 : Vec Ideal S5000x1 .i32) (xo : Vec Ideal S1x128x64 .f32) (g : Fin 128) (d : Fin 64) :
    k1_pay2 x0 x1 x2 x3 x4 xo (ix3 0 g d)
      = xo (ix3 0 g d) + ∑ r : Fin 5000, Cert.Spec.oh (x4 (ix2 r 0)) g
          * ((∑ k : Fin 64, (x0 (ix2 r k) + x1 (ix2 r k)) * x2 (ix2 k d)) + x3 (ix2 0 d)) := by
  rw [pay2_eq, addf_apply, shapeCast_self,
    shapeCast_addUnit_apply ![128, 64] _ shapeCasts_S128x64_S1x128x64 (ix3 0 g d),
    show (fun a : Fin 2 => (ix3 (0 : Fin 1) g d) a.succ) = ix2 g d from funext fun a => by match a with | ⟨0, _⟩ => rfl | ⟨1, _⟩ => rfl,
    mmB_apply]
  refine congrArg (xo (ix3 0 g d) + ·) (Finset.sum_congr rfl fun r _ => ?_)
  rw [ohblk_apply, h2blk_apply]

/-- The zero block at an index. -/
theorem pay1_apply (j : S1x128x64.Idx) : k1_pay1 (F := Ideal) j = 0 := by
  unfold k1_pay1
  show Ideal.ofBits .f32 0x00000000#32 = 0
  exact Ideal.ofBits_zero_f32

end BlocksAtIndex

section BlockIndex

/-- Every index of a 1×128×64 block is (0, g, d). -/
theorem exists_ix3 (i : S1x128x64.Idx) : ∃ (g : Fin 128) (d : Fin 64), i = ix3 0 g d := by
  have h0 : (i 0).val < 1 := (i 0).isLt
  exact ⟨i 1, i 2, (eq_ix3 i).trans (congrArg (fun z => ix3 z (i 1) (i 2)) (Fin.ext (by show (i 0).val = 0; omega)))⟩

end BlockIndex

section Run

/-- The arrays the kernel finds: node features, neighbour sums, weights, bias, graph ids. -/
abbrev hA (c : Dev nD) : Cert.Spec.SN.Idx → EReal := V c main_v11
abbrev aggA (c : Dev nD) : Cert.Spec.SN.Idx → EReal := V c main_v22
abbrev wA (c : Dev nD) : Cert.Spec.SW.Idx → EReal := V c main_arg6
abbrev bA (c : Dev nD) : Cert.Spec.SB.Idx → EReal := V c main_v24
abbrev gidA (c : Dev nD) : Cert.Spec.SG.Idx → BitVec 32 := V c main_v23
/-- The second linear layer of them. -/
abbrev h2A (c : Dev nD) : Cert.Spec.SN.Idx → EReal := Cert.Spec.linA (hA V c) (aggA V c) (wA V c) (bA V c)

/-- The blocks of them a point loads. -/
abbrev xb0 (c : Dev nD) (t : Fin cfg1.N) : Vec Ideal S5000x64 .bf16 := iblk1 V c 0 t
abbrev xb1 (c : Dev nD) (t : Fin cfg1.N) : Vec Ideal S5000x64 .f32 := iblk1 V c 1 t
abbrev xb2 (c : Dev nD) (t : Fin cfg1.N) : Vec Ideal S64x64 .f32 := iblk1 V c 2 t
abbrev xb3 (c : Dev nD) (t : Fin cfg1.N) : Vec Ideal S1x64 .f32 := iblk1 V c 3 t
abbrev xb4 (c : Dev nD) (t : Fin cfg1.N) : Vec Ideal S5000x1 .i32 := iblk1 V c 4 t

/-- A grid point as one of the twenty blocks of rows. -/
def pt (t : Fin cfg1.N) : Fin 20 := ⟨t.val, lt_of_lt_of_eq t.isLt (show cfg1.N = 20 from N_1)⟩

/-- The index maps, decided over the grid: the row windows sit at block `t`, the weights and the bias at the origin,
    the output at slab `t / 10`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 3) = t.val / 10 ∧ win1_5.index t (1 : Fin 3) = 0 ∧ win1_5.index t (2 : Fin 3) = 0 :=
  (by decide +kernel : ∀ t : Fin grid1.N, _)

theorem xb0_apply (c : Dev nD) (t : Fin cfg1.N) (r : Fin 5000) (k : Fin 64) :
    xb0 V c t (ix2 r k) = hA V c (ix2 (Cert.Spec.row (pt t) r) k) := by
  obtain ⟨e0, e1, -⟩ := idx_facts t
  unfold xb0 iblk1
  rw [View.read_apply]
  show V c main_v11 _ = V c main_v11 _
  congr 1
  funext a
  apply Fin.ext
  match a with
  | ⟨0, _⟩ => show win1_0.index t 0 * 5000 + 1 * r.val = t.val * 5000 + r.val; rw [e0]; omega
  | ⟨1, _⟩ => show win1_0.index t 1 * 64 + 1 * k.val = k.val; rw [e1]; omega

theorem xb1_apply (c : Dev nD) (t : Fin cfg1.N) (r : Fin 5000) (k : Fin 64) :
    xb1 V c t (ix2 r k) = aggA V c (ix2 (Cert.Spec.row (pt t) r) k) := by
  obtain ⟨-, -, e0, e1, -⟩ := idx_facts t
  unfold xb1 iblk1
  rw [View.read_apply]
  show V c main_v22 _ = V c main_v22 _
  congr 1
  funext a
  apply Fin.ext
  match a with
  | ⟨0, _⟩ => show win1_1.index t 0 * 5000 + 1 * r.val = t.val * 5000 + r.val; rw [e0]; omega
  | ⟨1, _⟩ => show win1_1.index t 1 * 64 + 1 * k.val = k.val; rw [e1]; omega

theorem xb2_apply (c : Dev nD) (t : Fin cfg1.N) (k d : Fin 64) :
    xb2 V c t (ix2 k d) = wA V c (ix2 k d) := by
  obtain ⟨-, -, -, -, e0, e1, -⟩ := idx_facts t
  unfold xb2 iblk1
  rw [View.read_apply]
  show V c main_arg6 _ = V c main_arg6 _
  congr 1
  funext a
  apply Fin.ext
  match a with
  | ⟨0, _⟩ => show win1_2.index t 0 * 64 + 1 * k.val = k.val; rw [e0]; omega
  | ⟨1, _⟩ => show win1_2.index t 1 * 64 + 1 * d.val = d.val; rw [e1]; omega

theorem xb3_apply (c : Dev nD) (t : Fin cfg1.N) (d : Fin 64) :
    xb3 V c t (ix2 0 d) = bA V c (ix2 0 d) := by
  obtain ⟨-, -, -, -, -, -, e0, e1, -⟩ := idx_facts t
  unfold xb3 iblk1
  rw [View.read_apply]
  show V c main_v24 _ = V c main_v24 _
  congr 1
  funext a
  apply Fin.ext
  match a with
  | ⟨0, _⟩ => show win1_3.index t 0 * 1 + 1 * 0 = 0; rw [e0]
  | ⟨1, _⟩ => show win1_3.index t 1 * 64 + 1 * d.val = d.val; rw [e1]; omega

theorem xb4_apply (c : Dev nD) (t : Fin cfg1.N) (r : Fin 5000) :
    xb4 V c t (ix2 r 0) = gidA V c (ix2 (Cert.Spec.row (pt t) r) 0) := by
  obtain ⟨-, -, -, -, -, -, -, -, e0, e1, -⟩ := idx_facts t
  unfold xb4 iblk1
  rw [View.read_apply]
  show V c main_v23 _ = V c main_v23 _
  congr 1
  funext a
  apply Fin.ext
  match a with
  | ⟨0, _⟩ => show win1_4.index t 0 * 5000 + 1 * r.val = t.val * 5000 + r.val; rw [e0]; omega
  | ⟨1, _⟩ => show win1_4.index t 1 * 1 + 1 * 0 = 0; rw [e1]

/-- One point's accumulating store, at a block index: the carried entry plus the point's block's contribution. -/
theorem point_apply (c : Dev nD) (t : Fin cfg1.N) (acc : Vec Ideal S1x128x64 .f32) (g : Fin 128) (d : Fin 64) :
    k1_pay2 (xb0 V c t) (xb1 V c t) (xb2 V c t) (xb3 V c t) (xb4 V c t) acc (ix3 0 g d)
      = acc (ix3 0 g d) + Cert.Spec.contrib (gidA V c) (h2A V c) (pt t) g d := by
  rw [pay2_apply]
  unfold Cert.Spec.contrib
  refine congrArg (acc (ix3 0 g d) + ·) (Finset.sum_congr rfl fun r _ => ?_)
  have e1 : (∑ k : Fin 64, (xb0 V c t (ix2 r k) + xb1 V c t (ix2 r k)) * xb2 V c t (ix2 k d))
      = ∑ k : Fin 64, (hA V c (ix2 (Cert.Spec.row (pt t) r) k) + aggA V c (ix2 (Cert.Spec.row (pt t) r) k)) * wA V c (ix2 k d) :=
    Finset.sum_congr rfl fun k _ => by rw [xb0_apply, xb1_apply, xb2_apply]
  rw [xb4_apply, xb3_apply, e1]
  rfl

/-! The accumulation over a run of ten points: reset at its first, one step at each later one. -/

/-- The step a point makes on the carried block. -/
def stepAt (c : Dev nD) (n : ℕ) (hn : n < cfg1.N) (acc : Vec Ideal S1x128x64 .f32) : Vec Ideal S1x128x64 .f32 :=
  k1_pay2 (xb0 V c ⟨n, hn⟩) (xb1 V c ⟨n, hn⟩) (xb2 V c ⟨n, hn⟩) (xb3 V c ⟨n, hn⟩) (xb4 V c ⟨n, hn⟩) acc

/-- What a resetting point leaves: its step on the zero block. -/
def resetAt (c : Dev nD) (n : ℕ) (hn : n < cfg1.N) : Vec Ideal S1x128x64 .f32 := stepAt V c n hn (k1_pay1 (F := Ideal))

theorem outsAt_reset (c : Dev nD) (n : ℕ) (hn : n < cfg1.N) (h0 : n % 10 = 0) : outsAt1 V c n hn = resetAt V c n hn :=
  (outsAt1_A V c ⟨n, hn⟩ h0).trans
    (out_A (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) ((hcond1_0 ⟨n, hn⟩).mpr h0) (xb0 V c ⟨n, hn⟩) (xb1 V c ⟨n, hn⟩) (xb2 V c ⟨n, hn⟩) (xb3 V c ⟨n, hn⟩) (xb4 V c ⟨n, hn⟩))

theorem outsAt_step (c : Dev nD) (n : ℕ) (hn : n + 1 < cfg1.N) (h0 : ¬(n + 1) % 10 = 0) :
    outsAt1 V c (n + 1) hn = stepAt V c (n + 1) hn (outsAt1 V c n (Nat.lt_of_succ_lt hn)) :=
  (outsAt1_B V c ⟨n + 1, hn⟩ h0).trans
    (out_B (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (xb0 V c ⟨n + 1, hn⟩) (xb1 V c ⟨n + 1, hn⟩) (xb2 V c ⟨n + 1, hn⟩) (xb3 V c ⟨n + 1, hn⟩) (xb4 V c ⟨n + 1, hn⟩)
      (outsAt1 V c n (Nat.lt_of_succ_lt hn)))

/-- After point `t` the output's staging buffer holds the fold over the run `10·(t / 10) … t`. -/
theorem outsAt_fold (c : Dev nD) (t : ℕ) (ht : t < cfg1.N) (h' : 10 * (t / 10) + t % 10 < cfg1.N) :
    outsAt1 V c t ht = Pipeline.accAt (resetAt V c) (stepAt V c) (10 * (t / 10)) (t % 10) h' :=
  Pipeline.eq_accAt_of_mod (outsAt1 V c) 10 (resetAt V c) (stepAt V c) (outsAt_reset V c) (outsAt_step V c) (by decide) t ht h'

/-- Block `n`'s addend at a block index (zero past the grid, where it is never read). -/
def term (c : Dev nD) (n : ℕ) (i : S1x128x64.Idx) : EReal :=
  if hn : n < cfg1.N then Cert.Spec.contrib (gidA V c) (h2A V c) (pt ⟨n, hn⟩) (i 1) (i 2) else 0

theorem step_apply (c : Dev nD) (n : ℕ) (hn : n < cfg1.N) (acc : Vec Ideal S1x128x64 .f32) (i : S1x128x64.Idx) :
    stepAt V c n hn acc i = acc i + term V c n i := by
  obtain ⟨g, d, rfl⟩ := exists_ix3 i
  refine (point_apply V c ⟨n, hn⟩ acc g d).trans ?_
  unfold term
  rw [dif_pos hn]

/-- The fold at a block index is the sum of the run's addends. -/
theorem fold_apply (c : Dev nD) (b j : ℕ) (h : b + j < cfg1.N) (i : S1x128x64.Idx) :
    Pipeline.accAt (resetAt V c) (stepAt V c) b j h i = 0 + ∑ s ∈ Finset.range (j + 1), term V c (b + s) i :=
  Pipeline.accAt_add_apply (ι := S1x128x64.Idx) (β := EReal) (resetAt V c) (stepAt V c) (fun _ => 0) (term V c) b j
    (fun hb i => (step_apply V c b hb (k1_pay1 (F := Ideal)) i).trans (by rw [pay1_apply]))
    (fun n hn acc i _ _ => step_apply V c n hn acc i)
    j le_rfl h i

/-- At the last point of a run the buffer holds, at (0, g, d), the ten blocks' contributions to graph `g`, feature `d`. -/
theorem outsAt_flush (c : Dev nD) (t : Fin cfg1.N) (h9 : t.val % 10 = 9) (q : Fin 2) (hq : q.val = t.val / 10)
    (g : Fin 128) (d : Fin 64) :
    outsAt1 V c t.val t.isLt (ix3 0 g d)
      = ∑ s : Fin 10, Cert.Spec.contrib (gidA V c) (h2A V c) (Cert.Spec.blk q s) g d := by
  have hN : cfg1.N = 20 := N_1
  have ht : t.val < cfg1.N := t.isLt
  rw [outsAt_fold V c t.val t.isLt (by omega), fold_apply V c _ _ _ (ix3 0 g d), zero_add, h9, Finset.sum_range]
  refine Finset.sum_congr rfl fun s _ => ?_
  have hs : 10 * (t.val / 10) + s.val < cfg1.N := by have := s.isLt; omega
  unfold term
  rw [dif_pos hs]
  exact congrArg (fun z => Cert.Spec.contrib (gidA V c) (h2A V c) z g d)
    (Fin.ext (by show 10 * (t.val / 10) + s.val = q.val * 10 + s.val; omega))

end Run

section Final

/-- What a flushing point (the last of its run of ten) writes back is its slab of the pooled array. -/
theorem flushed_eq (c : Dev nD) (t : Fin cfg1.N) (hf : (cfg1.win 5).flush t = true) :
    (dat1 (F := Ideal) V c).flushed 5 t
      = ((cfg1.win 5).blk t).view.read (Elt Ideal) (Cert.Spec.poolA (gidA V c) (h2A V c)) := by
  have hN : cfg1.N = 20 := N_1
  have ht : t.val < cfg1.N := t.isLt
  have h9 : t.val % 10 = 9 := (flush1_5 t).mp hf
  obtain ⟨-, -, -, -, -, -, -, -, -, -, e0, e1, e2⟩ := idx_facts t
  show (cfg1.win 5).cut (grid1.coords t) ((dat1 V c).after 5 t) = _
  rw [after1_5]
  funext y
  have y0 : (y 0).val < 1 := (y 0).isLt
  have y1 : (y 1).val < 128 := (y 1).isLt
  have y2 : (y 2).val < 64 := (y 2).isLt
  have hx : (cfg1.win 5).xinj (grid1.coords t) y = ix3 (0 : Fin 1) (⟨(y 1).val, y1⟩ : Fin 128) (⟨(y 2).val, y2⟩ : Fin 64) :=
    funext fun a => Fin.ext (by
      match a with
      | ⟨0, _⟩ => show (y 0).val = 0; omega
      | ⟨1, _⟩ => rfl
      | ⟨2, _⟩ => rfl)
  have he : ((cfg1.win 5).blk t).view.emb y
      = ix3 (⟨t.val / 10, by omega⟩ : Fin 2) (⟨(y 1).val, y1⟩ : Fin 128) (⟨(y 2).val, y2⟩ : Fin 64) :=
    funext fun a => Fin.ext (by
      match a with
      | ⟨0, _⟩ => show win1_5.index t 0 * 1 + 1 * (y 0).val = t.val / 10; rw [e0]; omega
      | ⟨1, _⟩ => show win1_5.index t 1 * 128 + 1 * (y 1).val = (y 1).val; rw [e1]; omega
      | ⟨2, _⟩ => show win1_5.index t 2 * 64 + 1 * (y 2).val = (y 2).val; rw [e2]; omega)
  rw [View.read_apply]
  show outsAt1 V c t.val t.isLt ((cfg1.win 5).xinj (grid1.coords t) y)
    = Cert.Spec.poolA (gidA V c) (h2A V c) (((cfg1.win 5).blk t).view.emb y)
  rw [hx, he, outsAt_flush V c t h9 ⟨t.val / 10, by omega⟩ rfl]
  rfl

/-- Each half's slab of the pooled array ends holding the ten blocks' contributions added. -/
theorem arr5' (c : Dev nD) :
    (dat1 (F := Ideal) V c).arrAt 5 cfg1.N = Cert.Spec.poolA (gidA V c) (h2A V c) :=
  (dat1 (F := Ideal) V c).arrAt_eq_of_cover 5 (Cert.Spec.poolA (gidA V c) (h2A V c)) (flushed_eq V c) fun i => by
    have hN : cfg1.N = 20 := N_1
    have i0 : (i 0).val < 2 := (i 0).isLt
    have i1 : (i 1).val < 128 := (i 1).isLt
    have i2 : (i 2).val < 64 := (i 2).isLt
    have hlt : 10 * (i 0).val + 9 < cfg1.N := by omega
    obtain ⟨-, -, -, -, -, -, -, -, -, -, e0, e1, e2⟩ := idx_facts ⟨10 * (i 0).val + 9, hlt⟩
    have e0' : win1_5.index ⟨10 * (i 0).val + 9, hlt⟩ 0 = (10 * (i 0).val + 9) / 10 := e0
    refine ⟨⟨10 * (i 0).val + 9, hlt⟩, (flush1_5 _).mpr (by show (10 * (i 0).val + 9) % 10 = 9; omega), ?_⟩
    show i ∈ ((View.whole main_v25).slice (win1_5.rect ⟨10 * (i 0).val + 9, hlt⟩)).set
    rw [View.set_slice_whole, Rect.mem_set_unit]
    intro a
    match a with
    | ⟨0, _⟩ =>
      show win1_5.index ⟨10 * (i 0).val + 9, hlt⟩ 0 * 1 ≤ (i 0 : Nat) ∧ (i 0 : Nat) < win1_5.index ⟨10 * (i 0).val + 9, hlt⟩ 0 * 1 + 1
      rw [e0']; omega
    | ⟨1, _⟩ =>
      show win1_5.index ⟨10 * (i 0).val + 9, hlt⟩ 1 * 128 ≤ (i 1 : Nat) ∧ (i 1 : Nat) < win1_5.index ⟨10 * (i 0).val + 9, hlt⟩ 1 * 128 + 128
      rw [e1]; omega
    | ⟨2, _⟩ =>
      show win1_5.index ⟨10 * (i 0).val + 9, hlt⟩ 2 * 64 ≤ (i 2 : Nat) ∧ (i 2 : Nat) < win1_5.index ⟨10 * (i 0).val + 9, hlt⟩ 2 * 64 + 64
      rw [e2]; omega

end Final

/-- After the second kernel each half's slab of the pooled array holds the ten blocks' contributions added, of the second
    linear layer of the arrays the kernel found. -/
theorem arr5 (c : Dev nD) :
    (dat1 (F := Ideal) V c).arrAt 5 cfg1.N
      = Cert.Spec.poolA (V c main_v23) (Cert.Spec.linA (V c main_v11) (V c main_v22) (V c main_arg6) (V c main_v24)) := by
  exact arr5' V c

end Cert.KernelIdeal.R1

end
-- ==== Proof.RefValue.lean ====
/-
  The reference read at an index. Its two layers are, entry by entry, the sum over the 64 features of the products of
  the aggregated row with the weight column, plus the bias, the first clipped at zero; the neighbour sums stay unopened.
  Its pooling is a scatter-add of the second layer's rows at their graph ids: an update (node `n`, feature `d'`) starts at
  row `graph n` (read signed, not clamped) and column `0`, with window coordinate `(0, d')`, so it lands on `(g, d)` exactly
  when `graph n = g` and `d' = d`, and an id outside the 128 rows lands nowhere. Hence the result at `(g, d)` is the sum of the
  second layer's column `d` over the nodes of graph `g`.
-/
import proofs.«416479_j54211077210422_3_alg».proof.Defs
import proofs.«416479_j54211077210422_3_alg».proof.Proof.Gen.ReferenceIdeal
import proofs.«416479_j54211077210422_3_alg».proof.Proof.Gen.ReferenceIdeal.Run
import proofs.«416479_j54211077210422_3_alg».proof.Proof.Gen.ReferenceIdeal.Read
import proofs.«416479_j54211077210422_3_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal Cert.ReferenceIdeal.Read

variable (x0 : (⟨S100000x64, .f32⟩ : BufTy).Contents (Elt Ideal)) (x1 x2 : (⟨S1200000, .i32⟩ : BufTy).Contents (Elt Ideal))
  (x3 : (⟨S100000, .i32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The reference's hidden layer is the clipped linear layer of the features and their neighbour sums. -/
theorem v15_eq :
    val_main_v15 (F := Ideal) x0 x1 x2 x4 x5
      = Cert.Spec.hidA x0 (val_main_v9 (F := Ideal) x0 x1 x2) x4 (val_main_v12 (F := Ideal) x5) := by
  funext i
  obtain ⟨n, e, rfl⟩ : ∃ n e, i = ix2 n e := ⟨i 0, i 1, eq_ix2 i⟩
  rw [val_main_v15_apply, val_main_v14_apply, val_main_v11_apply, val_main_v13_apply,
    val_main_call0_v0_apply, val_main_call0_cst_apply]
  have hl : ∀ k : Fin 64, lidx_main_v11 (ix2 n e) k = ix2 n k := fun k =>
    funext fun a => Fin.ext (by match a with | ⟨0, _⟩ => rfl | ⟨1, _⟩ => rfl)
  have hr : ∀ k : Fin 64, ridx_main_v11 (ix2 n e) k = ix2 k e := fun k =>
    funext fun a => Fin.ext (by match a with | ⟨0, _⟩ => rfl | ⟨1, _⟩ => rfl)
  have hb : idx_main_v13 (ix2 n e) = ix2 0 e :=
    funext fun a => Fin.ext (by match a with | ⟨0, _⟩ => rfl | ⟨1, _⟩ => rfl)
  simp only [hl, hr, hb, val_main_v10_apply, Ideal.maximumf_def, Ideal.addf_def, Ideal.ofBits_def,
    Ideal.ofBits_zero_f32]
  rfl

/-- The reference's second layer is the linear layer of the hidden layer and its neighbour sums. -/
theorem v30_eq :
    val_main_v30 (F := Ideal) x0 x1 x2 x4 x5 x6 x7
      = Cert.Spec.linA (val_main_v15 (F := Ideal) x0 x1 x2 x4 x5) (val_main_v25 (F := Ideal) x0 x1 x2 x4 x5) x6
          (val_main_v28 (F := Ideal) x7) := by
  funext i
  obtain ⟨n, e, rfl⟩ : ∃ n e, i = ix2 n e := ⟨i 0, i 1, eq_ix2 i⟩
  rw [val_main_v30_apply, val_main_v27_apply, val_main_v29_apply]
  have hl : ∀ k : Fin 64, lidx_main_v27 (ix2 n e) k = ix2 n k := fun k =>
    funext fun a => Fin.ext (by match a with | ⟨0, _⟩ => rfl | ⟨1, _⟩ => rfl)
  have hr : ∀ k : Fin 64, ridx_main_v27 (ix2 n e) k = ix2 k e := fun k =>
    funext fun a => Fin.ext (by match a with | ⟨0, _⟩ => rfl | ⟨1, _⟩ => rfl)
  have hb : idx_main_v29 (ix2 n e) = ix2 0 e :=
    funext fun a => Fin.ext (by match a with | ⟨0, _⟩ => rfl | ⟨1, _⟩ => rfl)
  simp only [hl, hr, hb, val_main_v26_apply, Ideal.addf_def]
  rfl

/-- An update lands on an operand element exactly when, on every axis, its start plus its window coordinate is that
    element's coordinate. -/
theorem resultIdx?_eq_some_iff {s si u : Shape} (D : ScatterDims s si u) {w : Nat} (j : u.Idx) (idx : IVec si w)
    (i : s.Idx) :
    D.resultIdx? j idx = some i ↔ ∀ a, D.start j idx a + (D.window j a : Int) = ((i a).val : Int) := by
  unfold ScatterDims.resultIdx?
  split
  · rename_i h
    constructor
    · intro heq a
      have := congrFun (Option.some.inj heq) a
      rw [← this]
      exact (Int.toNat_of_nonneg (h a).1).symm
    · intro H
      congr 1
      funext a
      refine Fin.ext ?_
      show (D.start j idx a + (D.window j a : Int)).toNat = (i a).val
      rw [H a]
      exact Int.toNat_natCast _
  · rename_i h
    constructor
    · intro heq
      exact absurd heq (by simp)
    · intro H
      exfalso
      apply h
      intro a
      rw [H a]
      exact ⟨Int.natCast_nonneg _, by exact_mod_cast (i a).isLt⟩

/-- The pooling scatter's dimension numbers: the graph id picks the row, the feature axis is the window. -/
abbrev poolDims := scatter_S128x64_S100000x1_S100000x64_1_0_0_1

/-- On the row axis an update starts at its node's graph id, read signed. -/
theorem poolDims_start0 (idx : IVec S100000x1 32) (n : Fin 100000) (d' : Fin 64) :
    poolDims.start (ix2 n d') idx 0 = (idx (ix2 n 0)).toInt := by
  unfold ScatterDims.start
  rw [dif_pos (show (0 : Fin 2) ∈ poolDims.scatterDimsToOperandDims by show (0 : Fin 2) ∈ ([0] : List (Fin 2)); decide)]
  congr 2
  funext b
  refine Fin.ext ?_
  match b with
  | ⟨0, _⟩ => rfl
  | ⟨1, _⟩ => rfl

/-- On the feature axis an update starts at zero. -/
theorem poolDims_start1 (idx : IVec S100000x1 32) (n : Fin 100000) (d' : Fin 64) :
    poolDims.start (ix2 n d') idx 1 = 0 := by
  unfold ScatterDims.start
  rw [dif_neg (show ¬ (1 : Fin 2) ∈ poolDims.scatterDimsToOperandDims by show ¬ (1 : Fin 2) ∈ ([0] : List (Fin 2)); decide)]

/-- The row axis is inserted: the window coordinate there is zero. -/
theorem poolDims_window0 (n : Fin 100000) (d' : Fin 64) : poolDims.window (ix2 n d') 0 = 0 := by
  unfold ScatterDims.window
  rw [dif_neg (show ¬ (0 : Fin 2) ∈ poolDims.sKept by show ¬ (0 : Fin 2) ∈ S128x64.kept [0]; decide)]

/-- On the feature axis the window coordinate is the update's feature. -/
theorem poolDims_window1 (n : Fin 100000) (d' : Fin 64) : poolDims.window (ix2 n d') 1 = d'.val := by
  unfold ScatterDims.window
  rw [dif_pos (show (1 : Fin 2) ∈ poolDims.sKept by show (1 : Fin 2) ∈ S128x64.kept [0]; decide)]
  rfl

/-- Node `n`'s feature `d'` lands on graph `g`'s feature `d` exactly when the node's graph id, read signed, is `g`
    and the features agree. -/
theorem poolDims_resultIdx_iff (idx : IVec S100000x1 32) (n : Fin 100000) (d' : Fin 64) (g : Fin 128) (d : Fin 64) :
    poolDims.resultIdx? (ix2 n d') idx = some (ix2 g d) ↔ (idx (ix2 n 0)).toInt = (g.val : Int) ∧ d' = d := by
  rw [resultIdx?_eq_some_iff, Fin.forall_fin_two, poolDims_start0, poolDims_start1, poolDims_window0, poolDims_window1]
  show (idx (ix2 n 0)).toInt + ((0 : Nat) : Int) = (g.val : Int) ∧ (0 : Int) + ((d'.val : Nat) : Int) = ((d.val : Nat) : Int) ↔ _
  rw [Nat.cast_zero, add_zero, zero_add, Nat.cast_inj, Fin.val_inj]

/-- The reference's pooling, read at a graph and a feature: the second layer's rows whose graph id, read signed, is that
    graph, summed (an id outside the 128 graphs lands nowhere). -/
theorem v33_apply (g : Fin 128) (d : Fin 64) :
    val_main_v33 (F := Ideal) x0 x1 x2 x3 x4 x5 x6 x7 (ix2 g d)
      = ∑ n ∈ Finset.univ.filter (fun n : Fin 100000 => (x3 (ix1 n)).toInt = (g.val : Int)),
          val_main_v30 (F := Ideal) x0 x1 x2 x4 x5 x6 x7 (ix2 n d) := by
  unfold val_main_v33
  generalize val_main_v30 (F := Ideal) x0 x1 x2 x4 x5 x6 x7 = U
  show val_main_v31 (F := Ideal) (ix2 g d)
      + ∑ j ∈ Finset.univ.filter (fun j => poolDims.resultIdx? j (val_main_v32 (F := Ideal) x3) = some (ix2 g d)), U j = _
  rw [val_main_v31_apply, val_main_cst_4_apply, Ideal.ofBits_def, Ideal.ofBits_zero_f32, zero_add,
    Finset.sum_filter, sum_idx2, Finset.sum_filter]
  refine Finset.sum_congr rfl fun n _ => ?_
  have h32 : val_main_v32 (F := Ideal) x3 (ix2 n 0) = x3 (ix1 n) := by
    rw [val_main_v32_apply]
    congr 1
    funext a
    match a with
    | ⟨0, _⟩ => rfl
  simp only [poolDims_resultIdx_iff, h32]
  by_cases hg : (x3 (ix1 n)).toInt = (g.val : Int)
  · simp only [hg, true_and, if_true]
    exact Finset.sum_ite_eq' Finset.univ d _ |>.trans (if_pos (Finset.mem_univ d))
  · simp only [hg, false_and, if_false]
    exact Finset.sum_const_zero

end Cert.ReferenceIdeal.RefValue

end
-- ==== Proof.Pool.lean ====
/-
  The pooling law. A node is numbered once by its half, its block within the half and its row within the block; a 0/1
  weight keeps a term (`1 · y = y`) or drops it (`0 · y = 0`) for every extended real `y`; so the blockwise 0/1-weighted
  sums add up to the sum over the nodes of one graph.
-/
import proofs.«416479_j54211077210422_3_alg».proof.Proof.Spec

noncomputable section

namespace Cert.Spec

open Idealize.ShloMosaic Idealize.ShloMosaic.ValueIdx

/-- A graph id below 128 is recognised by its signed reading: `g < 128 < 2^31`, so the signed reading of the
    32-bit word of `g` is `g` itself, and the signed reading is injective. -/
theorem eq_ofNat_iff_toInt (w : BitVec 32) (g : Fin 128) :
    w = BitVec.ofNat 32 g.val ↔ w.toInt = (g.val : Int) := by
  have hg := g.isLt
  have hb : (BitVec.ofNat 32 g.val).toInt = (g.val : Int) := by
    rw [BitVec.toInt_ofNat']
    exact Int.bmod_eq_of_le_mul_two (by omega) (by omega)
  constructor
  · rintro rfl
    exact hb
  · intro h
    exact BitVec.eq_of_toInt_eq (h.trans hb.symm)

/-- The one-hot weight selects: `1 · y = y` keeps the term when the signed graph id is `g`, `0 · y = 0` drops it
    otherwise (both hold for every extended real `y`). -/
theorem oh_mul (w : BitVec 32) (g : Fin 128) (y : EReal) :
    oh w g * y = if w.toInt = (g.val : Int) then y else 0 := by
  unfold oh
  by_cases h : w.toInt = (g.val : Int)
  · rw [if_pos ((eq_ofNat_iff_toInt w g).mpr h), if_pos h, one_mul]
  · rw [if_neg (mt (eq_ofNat_iff_toInt w g).mp h), if_neg h, zero_mul]

/-- Half, block within the half and row within the block number the nodes exactly once:
    `(c, s, r) ↦ (c·10 + s)·5000 + r`, inverted by division and remainder. -/
def nodeEquiv : Fin 2 × Fin 10 × Fin 5000 ≃ Fin 100000 where
  toFun p := row (blk p.1 p.2.1) p.2.2
  invFun n :=
    (⟨n.val / 50000, by have := n.isLt; omega⟩, ⟨n.val / 5000 % 10, by omega⟩, ⟨n.val % 5000, by omega⟩)
  left_inv := by
    rintro ⟨c, s, r⟩
    have := c.isLt; have := s.isLt; have := r.isLt
    simp only [row, blk]
    refine Prod.ext (Fin.ext ?_) (Prod.ext (Fin.ext ?_) (Fin.ext ?_)) <;> simp only <;> omega
  right_inv := by
    intro n
    have := n.isLt
    simp only [row, blk]
    refine Fin.ext ?_
    simp only
    omega

/-- The pooling law: over the two halves, the ten blocks of each and the 5000 rows of a block, the 0/1-weighted sum of
    any node function is its sum over the nodes whose graph id, read signed, is `g`. -/
theorem pool_eq (gid : Fin 100000 → BitVec 32) (f : Fin 100000 → EReal) (g : Fin 128) :
    ∑ c : Fin 2, ∑ s : Fin 10, ∑ r : Fin 5000, oh (gid (row (blk c s) r)) g * f (row (blk c s) r)
      = ∑ n ∈ Finset.univ.filter (fun n : Fin 100000 => (gid n).toInt = (g.val : Int)), f n := by
  -- the filtered sum is the sum of `if … then f n else 0` over all nodes; renumber the nodes by (half, block, row)
  rw [Finset.sum_filter, ← Equiv.sum_comp nodeEquiv, Fintype.sum_prod_type]
  refine Finset.sum_congr rfl fun c _ => ?_
  rw [Fintype.sum_prod_type]
  exact Finset.sum_congr rfl fun s _ => Finset.sum_congr rfl fun r _ => oh_mul _ _ _

end Cert.Spec

end
-- ==== Proof.Bridge.lean ====
/-
  The two results are one function of the arguments.

  The kernel program's result buffer ends at the sum of the two halves' pooled slabs (the run read through its segment
  boundaries); slab by slab that is the 0/1-weighted sum over ten blocks of 5000 nodes of the second linear layer, which
  the pooling law turns into the sum over the nodes of one graph — what the reference's scatter-add reads at that graph.
  The layers themselves agree entry by entry: the same products summed over the same 64 features, the same bias, the
  same clip at zero; the neighbour sums are the same scatter-add of the same gather on both sides and are never opened.
-/
import proofs.«416479_j54211077210422_3_alg».proof.Defs
import proofs.«416479_j54211077210422_3_alg».proof.Proof.RunValue
import proofs.«416479_j54211077210422_3_alg».proof.Proof.HostChain
import proofs.«416479_j54211077210422_3_alg».proof.Proof.Region0
import proofs.«416479_j54211077210422_3_alg».proof.Proof.Region1
import proofs.«416479_j54211077210422_3_alg».proof.Proof.RefValue
import proofs.«416479_j54211077210422_3_alg».proof.Proof.Pool
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

/-! ## The kernel program's result as a term of its arguments -/

namespace Cert.KernelIdeal.Result

open Cert.KernelIdeal Cert.KernelIdeal.Gen Cert.KernelIdeal.HostChain

variable (x0 : (⟨S100000x64, .f32⟩ : BufTy).Contents (Elt Ideal)) (x1 x2 : (⟨S1200000, .i32⟩ : BufTy).Contents (Elt Ideal))
  (x3 : (⟨S100000, .i32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The hidden layer the first kernel leaves, of the arguments. -/
def hidK : (⟨S100000x64, .bf16⟩ : BufTy).Contents (Elt Ideal) :=
  Cert.Spec.hidA x0 (agg1 x0 x1 x2) x4 (shapeCast S1x64 x5 shapeCasts_S64_S1x64)

/-- The second linear layer the second kernel pools, of the arguments. -/
def lin2K : S100000x64.Idx → EReal :=
  Cert.Spec.linA (hidK x0 x1 x2 x4 x5) (agg2 (hidK x0 x1 x2 x4 x5) x1 x2) x6 (shapeCast S1x64 x7 shapeCasts_S64_S1x64)

/-- The result: the two halves' pooled slabs added. -/
def kval : (⟨S128x64, .f32⟩ : BufTy).Contents (Elt Ideal) :=
  Host.reduceAdd (F := Ideal) (Cert.Spec.poolA (shapeCast S100000x1 x3 shapeCasts_S100000_S100000x1) (lin2K x0 x1 x2 x4 x5 x6 x7))
    (constant (F := Ideal) S_ .f32 0x00000000#32) reducesTo_S2x128x64_S128x64_d0 h_S_

variable (m : (ℓ : Loc nD τ sig) → Buf (Elt Ideal) ℓ) (ρ : Dev nD → PrngReg)

/-- The last boundary's contents at the result buffer are that term of the launch memory's arguments. -/
theorem result (c : Dev nD) : W5 m ρ c (Proc.devRef .tc main_v26)
    = kval (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [W5_v26]
  have h0 : hidden m ρ c = hidK (m ((c : Thread nD τ).loc main_arg0)) (m ((c : Thread nD τ).loc main_arg1))
      (m ((c : Thread nD τ).loc main_arg2)) (m ((c : Thread nD τ).loc main_arg4)) (m ((c : Thread nD τ).loc main_arg5)) := by
    show (dat0 (V1 m ρ) c).arrAt 4 cfg0.N = _
    rw [Cert.KernelIdeal.R0.arr4 (V1 m ρ) c, V1_arg0, V1_v9, V1_arg4, V1_v10]
    rfl
  have h1 : slabs m ρ c = Cert.Spec.poolA (shapeCast S100000x1 (m ((c : Thread nD τ).loc main_arg3)) shapeCasts_S100000_S100000x1)
      (lin2K (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6))
        (m ((c : Thread nD τ).loc main_arg7))) := by
    show (dat1 (V3 m ρ) c).arrAt 5 cfg1.N = _
    rw [Cert.KernelIdeal.R1.arr5 (V3 m ρ) c, V3_v23, V3_v11, V3_v22, V3_arg6, V3_v24, h0]
    rfl
  rw [h1]
  rfl

end Cert.KernelIdeal.Result

/-! ## The kernel program's term is the reference's -/

namespace Cert.Bridge

open Cert.KernelIdeal Cert.KernelIdeal.Gen Cert.KernelIdeal.HostChain Cert.KernelIdeal.Result
open Cert.ReferenceIdeal.Read

variable (x0 : (⟨S100000x64, .f32⟩ : BufTy).Contents (Elt Ideal)) (x1 x2 : (⟨S1200000, .i32⟩ : BufTy).Contents (Elt Ideal))
  (x3 : (⟨S100000, .i32⟩ : BufTy).Contents (Elt Ideal)) (x4 : (⟨S64x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The clipped layer reads its bias through the one row's entries only. -/
theorem hidA_congr (x agg : Cert.Spec.SN.Idx → EReal) (W : Cert.Spec.SW.Idx → EReal) (b b' : Cert.Spec.SB.Idx → EReal)
    (h : ∀ e : Fin 64, b (ix2 0 e) = b' (ix2 0 e)) : Cert.Spec.hidA x agg W b = Cert.Spec.hidA x agg W b' := by
  funext i
  unfold Cert.Spec.hidA Cert.Spec.lin
  rw [h (i 1)]

/-- So does the linear layer. -/
theorem linA_congr (x agg : Cert.Spec.SN.Idx → EReal) (W : Cert.Spec.SW.Idx → EReal) (b b' : Cert.Spec.SB.Idx → EReal)
    (h : ∀ e : Fin 64, b (ix2 0 e) = b' (ix2 0 e)) : Cert.Spec.linA x agg W b = Cert.Spec.linA x agg W b' := by
  funext i
  unfold Cert.Spec.linA Cert.Spec.lin
  rw [h (i 1)]

/-- A bias vector re-laid as one row reads the vector's entry, -/
theorem cast_row (v : (⟨S64, .f32⟩ : BufTy).Contents (Elt Ideal)) (e : Fin 64) :
    shapeCast S1x64 v shapeCasts_S64_S1x64 (ix2 0 e) = v (ix1 e) :=
  shapeCast_a_1a_apply v shapeCasts_S64_S1x64 0 e

/-- and so does the reference's broadcast of it into one row. -/
theorem v12_row (e : Fin 64) : val_main_v12 (F := Ideal) x5 (ix2 0 e) = x5 (ix1 e) := by
  rw [val_main_v12_apply]
  exact congrArg x5 (funext fun a => match a with | ⟨0, _⟩ => rfl)

theorem v28_row (e : Fin 64) : val_main_v28 (F := Ideal) x7 (ix2 0 e) = x7 (ix1 e) := by
  rw [val_main_v28_apply]
  exact congrArg x7 (funext fun a => match a with | ⟨0, _⟩ => rfl)

/-- The graph ids re-laid as a column read the vector's entry. -/
theorem gid_col (n : Fin 100000) : shapeCast S100000x1 x3 shapeCasts_S100000_S100000x1 (ix2 n 0) = x3 (ix1 n) :=
  shapeCast_apply x3 shapeCasts_S100000_S100000x1 _ _ (by
    rw [Shape.rowMajor_val_two, Shape.rowMajor_val_one]
    show n.val = n.val * 1 + 0
    omega)

/-- The first neighbour sums are the same scatter-add of the same gather. -/
theorem agg1_eq : val_main_v9 (F := Ideal) x0 x1 x2 = agg1 x0 x1 x2 := rfl

/-- The hidden layers agree. -/
theorem hid_eq : val_main_v15 (F := Ideal) x0 x1 x2 x4 x5 = hidK x0 x1 x2 x4 x5 := by
  rw [Cert.ReferenceIdeal.RefValue.v15_eq, agg1_eq]
  exact hidA_congr _ _ _ _ _ fun e => (v12_row x5 e).trans (cast_row x5 e).symm

/-- The second neighbour sums: the widening of the gathered rows changes nothing over the extended reals. -/
theorem agg2_eq : val_main_v25 (F := Ideal) x0 x1 x2 x4 x5 = agg2 (hidK x0 x1 x2 x4 x5) x1 x2 := by
  unfold val_main_v25 val_main_v22
  rw [hid_eq]
  rfl

/-- The second layers agree. -/
theorem lin2_eq : val_main_v30 (F := Ideal) x0 x1 x2 x4 x5 x6 x7 = lin2K x0 x1 x2 x4 x5 x6 x7 := by
  rw [Cert.ReferenceIdeal.RefValue.v30_eq, hid_eq, agg2_eq]
  exact linA_congr _ _ _ _ _ fun e => (v28_row x7 e).trans (cast_row x7 e).symm

/-- The kernel program's result is the reference's: at a graph and a feature, the two halves' ten blocks' 0/1-weighted row
    sums are the sum over that graph's nodes. -/
theorem kval_eq : kval x0 x1 x2 x3 x4 x5 x6 x7 = val_main_v33 (F := Ideal) x0 x1 x2 x3 x4 x5 x6 x7 := by
  funext i
  obtain ⟨g, d, rfl⟩ : ∃ (g : Fin 128) (d : Fin 64), i = ix2 g d := ⟨i 0, i 1, eq_ix2 i⟩
  rw [Cert.ReferenceIdeal.RefValue.v33_apply, lin2_eq]
  unfold kval
  show Ideal.hostReduceAdd reducesTo_S2x128x64_S128x64_d0 _ (Ideal.ofBits .f32 0x00000000#32) (ix2 g d) = _
  rw [Ideal.hostReduceAdd_single reducesTo_S2x128x64_S128x64_d0 (by decide : S2x128x64.Reduces [0] S128x64), Ideal.ofBits_zero_f32,
    zero_add]
  show ∑ c : Fin 2, ∑ s : Fin 10, ∑ r : Fin 5000,
      Cert.Spec.oh (shapeCast S100000x1 x3 shapeCasts_S100000_S100000x1 (ix2 (Cert.Spec.row (Cert.Spec.blk c s) r) 0)) g
        * lin2K x0 x1 x2 x4 x5 x6 x7 (ix2 (Cert.Spec.row (Cert.Spec.blk c s) r) d) = _
  refine Eq.trans (Finset.sum_congr rfl fun c _ => Finset.sum_congr rfl fun s _ => Finset.sum_congr rfl fun r _ => ?_)
    (Cert.Spec.pool_eq (fun n => x3 (ix1 n)) (fun n => lin2K x0 x1 x2 x4 x5 x6 x7 (ix2 n d)) g)
  exact congrArg (fun w => Cert.Spec.oh w g * lin2K x0 x1 x2 x4 x5 x6 x7 (ix2 (Cert.Spec.row (Cert.Spec.blk c s) r) d))
    (gid_col x3 (Cert.Spec.row (Cert.Spec.blk c s) r))

end Cert.Bridge

end
-- ==== Proof.lean ====
/-
  The certificate: a graph network of two sum-aggregating layers and a sum pooling, as two kernels among host gathers and
  scatter-adds, against its jnp reference, over the extended reals.

  The three programs run to their ends with the arguments unchanged: the two kernel programs by their generated frames,
  the reference by its generated run. The idealization rewrote nothing, so `preserves` is trivial. For the value claim
  both programs are run from memories agreeing on the arguments: the kernel program's result buffer ends at the two
  halves' pooled slabs added (the run read through its segment boundaries, each kernel's write-backs folded into one
  whole-array function), the reference's at its scatter-add; the two are one function of the arguments (Bridge.lean):
  the linear layers agree entry by entry, and the 0/1 matrix products accumulated block by block are the sum over the
  nodes of each graph. No finiteness of the inputs is needed: only commutativity and associativity of the extended
  reals' addition and `0 · y = 0`, `1 · y = y`.
-/
import proofs.«416479_j54211077210422_3_alg».proof.Defs
import proofs.«416479_j54211077210422_3_alg».proof.Proof.Gen.Kernel
import proofs.«416479_j54211077210422_3_alg».proof.Proof.Gen.Kernel.Frame
import proofs.«416479_j54211077210422_3_alg».proof.Proof.Gen.KernelIdeal
import proofs.«416479_j54211077210422_3_alg».proof.Proof.Gen.KernelIdeal.Frame
import proofs.«416479_j54211077210422_3_alg».proof.Proof.Gen.ReferenceIdeal
import proofs.«416479_j54211077210422_3_alg».proof.Proof.Gen.ReferenceIdeal.Run
import proofs.«416479_j54211077210422_3_alg».proof.Proof.Gen.ReferenceIdeal.Read
import proofs.«416479_j54211077210422_3_alg».proof.Proof.Gen.Pre_finite_inputs
import proofs.«416479_j54211077210422_3_alg».proof.Proof.RunValue
import proofs.«416479_j54211077210422_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel program's result at its term of the arguments, the reference's at its own of arguments that
    agree: one function. -/
theorem algebraic : Cert.algebraic_KernelIdeal_ReferenceIdeal := by
  intro m ρ m' ρ' _ hagree
  refine ⟨fun c => Cert.KernelIdeal.Result.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.kval_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
